-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256000x300 : Shape := ⟨2, ![256000, 300]⟩
abbrev S256 : Shape := ⟨1, ![256]⟩
abbrev S_ : Shape := ⟨0, ![]⟩

class Facts : Prop where
  bcast_S_S256000x300 : S_.BroadcastsInDim S256000x300 (![] : Fin 0 → Fin S256000x300.rank)
  reducesTo_S256000x300_S_d0_1 : S256000x300.ReducesTo [0, 1] S_
  h_S_ : 0 < S_.numel

variable [Facts]

def fn {F : FTy → Type} [FloatOps F] (main_arg0 : FVec F S256000x300 .f32) (main_arg1 : FVec F S256000x300 .f32) (main_arg2 : IVec S256 32) : IVec S_ 1 :=
  let main_v0 : FVec F S256000x300 .f32 := Host.absf main_arg0
  let main_cst : FVec F S_ .f32 := constant S_ .f32 0x7F800000#32
  let main_v1 : FVec F S256000x300 .f32 := broadcastInDim S256000x300 ![] bcast_S_S256000x300 main_cst
  let main_v2 : IVec S256000x300 1 := cmpf .olt main_v0 main_v1
  let main_c : IVec S_ 1 := constantI S_ 1 1#1
  let main_v3 : IVec S_ 1 := (fun x v => Host.reduce IntOp.andi x v reducesTo_S256000x300_S_d0_1 h_S_) main_v2 main_c
  let main_v4 : FVec F S256000x300 .f32 := Host.absf main_arg1
  let main_cst_0 : FVec F S_ .f32 := constant S_ .f32 0x7F800000#32
  let main_v5 : FVec F S256000x300 .f32 := broadcastInDim S256000x300 ![] bcast_S_S256000x300 main_cst_0
  let main_v6 : IVec S256000x300 1 := cmpf .olt main_v4 main_v5
  let main_c_1 : IVec S_ 1 := constantI S_ 1 1#1
  let main_v7 : IVec S_ 1 := (fun x v => Host.reduce IntOp.andi x v reducesTo_S256000x300_S_d0_1 h_S_) main_v6 main_c_1
  let main_v8 : IVec S_ 1 := andi main_v3 main_v7
  main_v8
-- ==== Kernel.lean ====
abbrev S256000x300 : Shape := ⟨2, ![256000, 300]⟩
abbrev S256 : Shape := ⟨1, ![256]⟩
abbrev S256x1000x300 : Shape := ⟨3, ![256, 1000, 300]⟩
abbrev S256x1000x1 : Shape := ⟨3, ![256, 1000, 1]⟩
abbrev S4x1000x300 : Shape := ⟨3, ![4, 1000, 300]⟩
abbrev S4x1000x1 : Shape := ⟨3, ![4, 1000, 1]⟩
abbrev S4x1000 : Shape := ⟨2, ![4, 1000]⟩
abbrev S256x1000 : Shape := ⟨2, ![256, 1000]⟩
abbrev S256x1 : Shape := ⟨2, ![256, 1]⟩
abbrev S1 : Shape := ⟨1, ![1]⟩
abbrev S1000 : Shape := ⟨1, ![1000]⟩
abbrev S1x1000 : Shape := ⟨2, ![1, 1000]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S256000x300, .f32⟩
  | .hbm, ⟨1, _⟩ => ⟨S256000x300, .f32⟩
  | .hbm, ⟨2, _⟩ => ⟨S256, .i32⟩
  | .hbm, ⟨3, _⟩ => ⟨S256x1000x300, .f32⟩
  | .hbm, ⟨4, _⟩ => ⟨S256x1000x300, .f32⟩
  | .hbm, ⟨5, _⟩ => ⟨S256x1000x1, .f32⟩
  | .hbm, ⟨6, _⟩ => ⟨S256x1000, .f32⟩
  | .hbm, ⟨7, _⟩ => ⟨S256x1, .i32⟩
  | .hbm, ⟨8, _⟩ => ⟨S1, .f32⟩
  | .hbm, ⟨9, _⟩ => ⟨S_, .f32⟩
  | .local _ .vmem, ⟨0, _⟩ => ⟨S4x1000x300, .f32⟩
  | .local _ .vmem, ⟨1, _⟩ => ⟨S4x1000x300, .f32⟩
  | .local _ .vmem, ⟨2, _⟩ => ⟨S4x1000x300, .f32⟩
  | .local _ .vmem, ⟨3, _⟩ => ⟨S4x1000x300, .f32⟩
  | .local _ .vmem, ⟨4, _⟩ => ⟨S4x1000x1, .f32⟩
  | .local _ .vmem, ⟨5, _⟩ => ⟨S4x1000x1, .f32⟩
  | .local _ .vmem, ⟨6, _⟩ => ⟨S256x1000, .f32⟩
  | .local _ .vmem, ⟨7, _⟩ => ⟨S256x1, .i32⟩
  | .local _ .vmem, ⟨8, _⟩ => ⟨S1, .f32⟩
  | _, _ => ⟨S256000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S256x1000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S256000x300_S256x1000x300 : S256000x300.ShapeCasts S256x1000x300
  inb_S4x1000x300_S4x1000x300_0_0_0 : ∀ a, (![0, 0, 0] : Fin 3 → Nat) a + S4x1000x300.size a ≤ S4x1000x300.size a
  h_S4x1000x300 : 0 < S4x1000x300.numel
  shapeCasts_S4x1000x300_S4x1000x300 : S4x1000x300.ShapeCasts S4x1000x300
  reduces_S4x1000x300_S4x1000 : S4x1000x300.Reduces [2] S4x1000
  shapeCasts_S4x1000_S4x1000x1 : S4x1000.ShapeCasts S4x1000x1
  inb_S4x1000x1_S4x1000x1_0_0_0 : ∀ a, (![0, 0, 0] : Fin 3 → Nat) a + S4x1000x1.size a ≤ S4x1000x1.size a
  h_S4x1000x1 : 0 < S4x1000x1.numel
  shapeCasts_S256x1000x1_S256x1000 : S256x1000x1.ShapeCasts S256x1000
  shapeCasts_S256_S256x1 : S256.ShapeCasts S256x1
  inb_S256x1000_S256x1000_0_0 : ∀ a, (![0, 0] : Fin 2 → Nat) a + S256x1000.size a ≤ S256x1000.size a
  h_S256x1000 : 0 < S256x1000.numel
  shapeCasts_S256x1000_S256x1000 : S256x1000.ShapeCasts S256x1000
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1000_d1_w32 : S256x1000.Iotas .tc 32 [1]
  broadcasts_S256x1_S256x1000 : S256x1.Broadcasts S256x1000
  natLt_1_32 : 1 < 32
  reduces_S256x1000_S1000 : S256x1000.Reduces [0] S1000
  shapeCasts_S1000_S1x1000 : S1000.ShapeCasts S1x1000
  broadcasts_S1x1000_S256x1000 : S1x1000.Broadcasts S256x1000
  reduces_S1x1000_S1 : S1x1000.Reduces [1] S1
  inb_S1_S1_0 : ∀ a, (![0] : Fin 1 → Nat) a + S1.size a ≤ S1.size a
  h_S1 : 0 < S1.numel
  shapeCasts_S1_S_ : S1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1000x300.size a ≤ S256x1000x300.size a
  hwx0_0 : ∀ i : grid0.Coords, EltTy.bits .f32 = 32 ∨ (Rect.block (s := S256x1000x300) S4x1000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1000x300.size a ≤ S256x1000x300.size a
  hwx0_1 : ∀ i : grid0.Coords, EltTy.bits .f32 = 32 ∨ (Rect.block (s := S256x1000x300) S4x1000x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1000x1.size a ≤ S256x1000x1.size a
  hwx0_2 : ∀ i : grid0.Coords, EltTy.bits .f32 = 32 ∨ (Rect.block (s := S256x1000x1) S4x1000x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1000.size a ≤ S256x1000.size a
  hwx1_0 : ∀ i : grid1.Coords, EltTy.bits .f32 = 32 ∨ (Rect.block (s := S256x1000) S256x1000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .i32 = 32 ∨ (Rect.block (s := S256x1) S256x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)

variable [Facts₀]

abbrev win0_0 : Pipeline.Window sig grid0 :=
  Pipeline.Window.ofSpec (Memref.whole main_v0) S4x1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x1000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x1000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256000x300 : Shape := ⟨2, ![256000, 300]⟩
abbrev S256 : Shape := ⟨1, ![256]⟩
abbrev S_ : Shape := ⟨0, ![]⟩
abbrev S256000 : Shape := ⟨1, ![256000]⟩
abbrev S256x1000 : Shape := ⟨2, ![256, 1000]⟩
abbrev S256x1 : Shape := ⟨2, ![256, 1]⟩
abbrev S1x1000 : Shape := ⟨2, ![1, 1000]⟩
abbrev S1000 : Shape := ⟨1, ![1000]⟩

abbrev nBuf : Space → Nat
  | .hbm => 49
  | .vmem => 0
  | .smem => 0
  | _ => 0

abbrev bufTy : (tb : Table) → Fin (tcTables nBuf tb) → BufTy
  | .hbm, ⟨0, _⟩ => ⟨S256000x300, .f32⟩
  | .hbm, ⟨1, _⟩ => ⟨S256000x300, .f32⟩
  | .hbm, ⟨2, _⟩ => ⟨S256, .i32⟩
  | .hbm, ⟨3, _⟩ => ⟨S256000x300, .f32⟩
  | .hbm, ⟨4, _⟩ => ⟨S_, .f32⟩
  | .hbm, ⟨5, _⟩ => ⟨S256000x300, .f32⟩
  | .hbm, ⟨6, _⟩ => ⟨S256000x300, .f32⟩
  | .hbm, ⟨7, _⟩ => ⟨S256000x300, .f32⟩
  | .hbm, ⟨8, _⟩ => ⟨S_, .f32⟩
  | .hbm, ⟨9, _⟩ => ⟨S256000, .f32⟩
  | .hbm, ⟨10, _⟩ => ⟨S256000, .f32⟩
  | .hbm, ⟨11, _⟩ => ⟨S256x1000, .f32⟩
  | .hbm, ⟨12, _⟩ => ⟨S256x1, .i32⟩
  | .hbm, ⟨13, _⟩ => ⟨S1x1000, .i32⟩
  | .hbm, ⟨14, _⟩ => ⟨S256x1000, .i32⟩
  | .hbm, ⟨15, _⟩ => ⟨S256x1000, .i32⟩
  | .hbm, ⟨16, _⟩ => ⟨S256x1000, .i1⟩
  | .hbm, ⟨17, _⟩ => ⟨S256x1000, .f32⟩
  | .hbm, ⟨18, _⟩ => ⟨S256x1000, .f32⟩
  | .hbm, ⟨19, _⟩ => ⟨S_, .f32⟩
  | .hbm, ⟨20, _⟩ => ⟨S1000, .f32⟩
  | .hbm, ⟨21, _⟩ => ⟨S1x1000, .f32⟩
  | .hbm, ⟨22, _⟩ => ⟨S_, .f32⟩
  | .hbm, ⟨23, _⟩ => ⟨S1000, .f32⟩
  | .hbm, ⟨24, _⟩ => ⟨S1x1000, .f32⟩
  | .hbm, ⟨25, _⟩ => ⟨S256x1000, .f32⟩
  | .hbm, ⟨26, _⟩ => ⟨S256x1000, .f32⟩
  | .hbm, ⟨27, _⟩ => ⟨S256x1000, .f32⟩
  | .hbm, ⟨28, _⟩ => ⟨S_, .f32⟩
  | .hbm, ⟨29, _⟩ => ⟨S1000, .f32⟩
  | .hbm, ⟨30, _⟩ => ⟨S1x1000, .f32⟩
  | .hbm, ⟨31, _⟩ => ⟨S1x1000, .f32⟩
  | .hbm, ⟨32, _⟩ => ⟨S_, .f32⟩
  | .hbm, ⟨33, _⟩ => ⟨S1x1000, .f32⟩
  | .hbm, ⟨34, _⟩ => ⟨S1x1000, .f32⟩
  | .hbm, ⟨35, _⟩ => ⟨S_, .f32⟩
  | .hbm, ⟨36, _⟩ => ⟨S1x1000, .f32⟩
  | .hbm, ⟨37, _⟩ => ⟨S1x1000, .f32⟩
  | .hbm, ⟨38, _⟩ => ⟨S_, .f32⟩
  | .hbm, ⟨39, _⟩ => ⟨S1x1000, .f32⟩
  | .hbm, ⟨40, _⟩ => ⟨S1x1000, .i1⟩
  | .hbm, ⟨41, _⟩ => ⟨S1x1000, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S256000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]

class Facts₀ : Prop where
  bcast_S_S256000x300 : S_.BroadcastsInDim S256000x300 (![] : Fin 0 → Fin S256000x300.rank)
  reducesTo_S256000x300_S256000_d1 : S256000x300.ReducesTo [1] S256000
  h_S_ : 0 < S_.numel
  shapeCasts_S256000_S256x1000 : S256000.ShapeCasts S256x1000
  bcast_S256_S256x1_0 : S256.BroadcastsInDim S256x1 (![0] : Fin 1 → Fin S256x1.rank)
  bcast_S256x1_S256x1000_0_1 : S256x1.BroadcastsInDim S256x1000 (![0, 1] : Fin 2 → Fin S256x1000.rank)
  bcast_S1x1000_S256x1000_0_1 : S1x1000.BroadcastsInDim S256x1000 (![0, 1] : Fin 2 → Fin S256x1000.rank)
  reducesTo_S256x1000_S1000_d0 : S256x1000.ReducesTo [0] S1000
  bcast_S1000_S1x1000_1 : S1000.BroadcastsInDim S1x1000 (![1] : Fin 1 → Fin S1x1000.rank)
  bcast_S_S1x1000 : S_.BroadcastsInDim S1x1000 (![] : Fin 0 → Fin S1x1000.rank)
  reducesTo_S1x1000_S_d0_1 : S1x1000.ReducesTo [0, 1] S_

variable [Facts₀]

class Facts : Prop extends Facts₀ where

variable [Facts]
-- ==== Proof.LibDistBridge.lean ====
/-
  The row distances `‖e_r − a_r + ε‖₂` of two [256000, 300] arrays as a [256, 1000] matrix (row r = 1000·b + c at entry
  (b, c)), reached two ways at the ideal floats: from the arrays viewed [256, 1000, 300] and reduced along the last axis
  into [256, 1000, 1], then viewed [256, 1000] (`dist3`, `dist3_flat`); and one [4, 1000, 300] block at a time (a block's
  square root of its lane sums of squares, read at an entry: `distBlock_apply`).
-/
import Idealize.ShloMosaic.Lib.Pipeline.Value
import Idealize.ShloMosaic.Lib.ValueIdx
import Idealize.ShloMosaic.PureOps.Ideal.Laws

noncomputable section

namespace Cert.DistBridge

open Idealize.ShloMosaic Idealize.ShloMosaic.ValueIdx

abbrev Flat : Shape := ⟨2, ![256000, 300]⟩
abbrev Cube : Shape := ⟨3, ![256, 1000, 300]⟩
abbrev CubeOut : Shape := ⟨3, ![256, 1000, 1]⟩
abbrev Rel : Shape := ⟨2, ![256, 1000]⟩
abbrev Blk : Shape := ⟨3, ![4, 1000, 300]⟩
abbrev BlkMid : Shape := ⟨2, ![4, 1000]⟩
abbrev BlkOut : Shape := ⟨3, ![4, 1000, 1]⟩

/-- One term of a row's sum: the square of the difference shifted by the constant ε (the f32 nearest 1e-6). -/
def sq (e a : EReal) : EReal :=
  (e - a + Ideal.ofBits .f32 0x358637BD#32) * (e - a + Ideal.ofBits .f32 0x358637BD#32)

/-- Row `1000·b + c` of the flat arrays. -/
def rowOf (b : Fin 256) (c : Fin 1000) : Fin 256000 := ⟨b.val * 1000 + c.val, by have := b.isLt; have := c.isLt; omega⟩

/-- THE DISTANCES, from the flat arrays: entry (b, c) is the root of the sum over the 300 columns of row `1000·b + c`. -/
def distFlat (e a : FVec Ideal Flat .f32) : FVec Ideal Rel .f32 := fun j =>
  Ideal.sqrt (∑ k : Fin 300, sq (e (ix2 (rowOf (j 0) (j 1)) k)) (a (ix2 (rowOf (j 0) (j 1)) k)))

/-- The same from the arrays viewed [256, 1000, 300], kept with a trailing unit axis. -/
def dist3 (e3 a3 : FVec Ideal Cube .f32) : FVec Ideal CubeOut .f32 := fun i =>
  Ideal.sqrt (∑ k : Fin 300, sq (e3 (ix3 (i 0) (i 1) k)) (a3 (ix3 (i 0) (i 1) k)))

/-- The cube view of a flat array at (b, c, k) is the flat array at (1000·b + c, k). -/
theorem cube_apply (x : FVec Ideal Flat .f32) (h : Flat.ShapeCasts Cube) (b : Fin 256) (c : Fin 1000) (k : Fin 300) :
    shapeCast Cube x h (ix3 b c k) = x (ix2 (rowOf b c) k) :=
  shapeCast_apply x h (ix3 b c k) (ix2 (rowOf b c) k) (by
    rw [Shape.rowMajor_val_two, Shape.rowMajor_val_three]
    show (b.val * 1000 + c.val) * 300 + k.val = (b.val * 1000 + c.val) * 300 + k.val
    rfl)

/-- The two views meet: `dist3` of the cube views, its unit axis dropped, is `distFlat`. -/
theorem dist3_flat (e a : FVec Ideal Flat .f32) (h : Flat.ShapeCasts Cube) (ho : CubeOut.ShapeCasts Rel) :
    shapeCast Rel (dist3 (shapeCast Cube e h) (shapeCast Cube a h)) ho = distFlat e a := by
  funext j
  obtain ⟨b, c, rfl⟩ : ∃ (b : Fin 256) (c : Fin 1000), j = ix2 b c := ⟨j 0, j 1, eq_ix2 j⟩
  rw [shapeCast_apply _ ho (ix2 b c) (ix3 b c (0 : Fin 1)) (by
    rw [Shape.rowMajor_val_two, Shape.rowMajor_val_three]
    show (b.val * 1000 + c.val) * 1 + 0 = b.val * 1000 + c.val
    omega)]
  show Ideal.sqrt (∑ k : Fin 300, sq (shapeCast Cube e h (ix3 b c k)) (shapeCast Cube a h (ix3 b c k)))
    = Ideal.sqrt (∑ k : Fin 300, sq (e (ix2 (rowOf b c) k)) (a (ix2 (rowOf b c) k)))
  refine congrArg Ideal.sqrt (Finset.sum_congr rfl fun k _ => ?_)
  rw [cube_apply, cube_apply]

/-- ONE BLOCK of the kernel: the root of the lane sums of the squared shifted differences of two [4, 1000, 300] blocks,
    kept [4, 1000, 1], read at (p, q, 0). -/
theorem distBlock_apply (x1 x0 : FVec Ideal Blk .f32) (hs : Blk.ShapeCasts Blk) (hr : Blk.Reduces [2] BlkMid)
    (hc : BlkMid.ShapeCasts BlkOut) (hφ : FKind.Formats .f32) (hacc : (0x00000000#32 : BitVec 32) = FKind.add.neutral .f32 hφ)
    (p : Fin 4) (q : Fin 1000) :
    (sqrt (shapeCast BlkOut (multiReduction .add [2] BlkMid
        (mulf (addf (subf (shapeCast Blk x1 hs) (shapeCast Blk x0 hs)) (broadcast Blk (Scalar.ofBits .f32 0x358637BD#32)))
              (addf (subf (shapeCast Blk x1 hs) (shapeCast Blk x0 hs)) (broadcast Blk (Scalar.ofBits .f32 0x358637BD#32))))
        0x00000000#32 hr hφ hacc) hc) : FVec Ideal BlkOut .f32) (ix3 p q (0 : Fin 1))
      = Ideal.sqrt (∑ k : Fin 300, sq (x1 (ix3 p q k)) (x0 (ix3 p q k))) := by
  rw [shapeCast_self, shapeCast_self]
  show Ideal.sqrt (shapeCast BlkOut _ hc (ix3 p q (0 : Fin 1))) = _
  rw [shapeCast_apply _ hc (ix3 p q (0 : Fin 1)) (ix2 p q) (by
    rw [Shape.rowMajor_val_two, Shape.rowMajor_val_three]
    show p.val * 1000 + q.val = (p.val * 1000 + q.val) * 1 + 0
    omega),
    Ideal.multiReduction_add_single]
  refine congrArg Ideal.sqrt (Finset.sum_congr rfl fun k _ => ?_)
  have hl : hr.lift (ix2 p q) k = ix3 p q ⟨k.val, k.isLt⟩ := by
    funext a; apply Fin.ext
    match a with
    | ⟨0, _⟩ => rfl
    | ⟨1, _⟩ => rfl
    | ⟨2, _⟩ => rfl
  rw [hl]
  rfl

end Cert.DistBridge

end
-- ==== Proof.KernelValue.lean ====
/-
  What the idealized kernel's run leaves in its result, read back boundary by boundary. The first call writes, at grid
  point t, rows 4t … 4t+3 of the distance cube `dist3` of the two arguments viewed [256, 1000, 300]; the 64 blocks tile the
  array, so it ends at `dist3`. The host views it [256, 1000] (`distFlat` of the arguments) and the labels [256, 1]. The
  second call, one point over whole arrays, writes the mining payload of those two, which at its one entry is `mine`.
-/
import proofs.«160560_j884763263444_1_alg».proof.Proof.Gen.KernelIdeal.Frame
import proofs.«160560_j884763263444_1_alg».proof.Proof.LibDistBridge

set_option maxRecDepth 16384

noncomputable section

namespace Cert.KernelIdeal.RunValue

open Cert.KernelIdeal Cert.KernelIdeal.Gen
open Idealize.ShloMosaic Idealize.ShloMosaic.TcCoe Idealize.ShloMosaic.ValueIdx Idealize.SL.Sem
open Idealize.ShloMosaic.Pipeline (Dat)
open Cert.DistBridge (dist3 distFlat sq)

/-! ## The first call: blocks of the distance cube -/

theorem hz3 : (![0, 0, 0] : Fin 3 → Nat) = fun _ => 0 := funext fun a => by fin_cases a <;> rfl

/-- The distance payload of two blocks at (p, q, 0). -/
theorem pay0_apply (x1 x0 : Vec Ideal S4x1000x300 .f32) (p : Fin 4) (q : Fin 1000) :
    k0_pay1 (F := Ideal) x1 x0 (ix3 p q (0 : Fin 1)) = Ideal.sqrt (∑ k : Fin 300, sq (x1 (ix3 p q k)) (x0 (ix3 p q k))) := by
  unfold k0_pay1
  exact Cert.DistBridge.distBlock_apply x1 x0 _ _ _ _ _ p q

/-- The printed index maps over the grid: every window's block index is (t, 0, 0). -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Row p of point t's block is row 4t + p of the array. -/
def rowAt (t : Fin cfg0.N) (p : Fin 4) : Fin 256 := ⟨4 * t.val + p.val, by have := t.isLt; have h : cfg0.N = 64 := N_0; have := p.isLt; omega⟩

theorem emb0_0 (t : Fin cfg0.N) (p : Fin 4) (q : Fin 1000) (k : Fin 300) :
    ((cfg0.win 0).blk t).view.emb (ix3 p q k) = ix3 (rowAt t p) q k := by
  obtain ⟨e0, e1, e2, -⟩ := idx_facts0 t
  funext a; apply Fin.ext
  match a with
  | ⟨0, _⟩ => show win0_0.index t (0 : Fin 3) * 4 + 1 * p.val = 4 * t.val + p.val; omega
  | ⟨1, _⟩ => show win0_0.index t (1 : Fin 3) * 1000 + 1 * q.val = q.val; omega
  | ⟨2, _⟩ => show win0_0.index t (2 : Fin 3) * 300 + 1 * k.val = k.val; omega

theorem emb0_1 (t : Fin cfg0.N) (p : Fin 4) (q : Fin 1000) (k : Fin 300) :
    ((cfg0.win 1).blk t).view.emb (ix3 p q k) = ix3 (rowAt t p) q k := by
  obtain ⟨-, -, -, e0, e1, e2, -⟩ := idx_facts0 t
  funext a; apply Fin.ext
  match a with
  | ⟨0, _⟩ => show win0_1.index t (0 : Fin 3) * 4 + 1 * p.val = 4 * t.val + p.val; omega
  | ⟨1, _⟩ => show win0_1.index t (1 : Fin 3) * 1000 + 1 * q.val = q.val; omega
  | ⟨2, _⟩ => show win0_1.index t (2 : Fin 3) * 300 + 1 * k.val = k.val; omega

theorem emb0_2 (t : Fin cfg0.N) (p : Fin 4) (q : Fin 1000) (z : Fin 1) :
    ((cfg0.win 2).blk t).view.emb (ix3 p q z) = ix3 (rowAt t p) q z := by
  obtain ⟨-, -, -, -, -, -, e0, e1, e2⟩ := idx_facts0 t
  funext a; apply Fin.ext
  match a with
  | ⟨0, _⟩ => show win0_2.index t (0 : Fin 3) * 4 + 1 * p.val = 4 * t.val + p.val; omega
  | ⟨1, _⟩ => show win0_2.index t (1 : Fin 3) * 1000 + 1 * q.val = q.val; omega
  | ⟨2, _⟩ => show win0_2.index t (2 : Fin 3) * 1 + 1 * z.val = z.val; omega

section Region0
variable (V : (c : Dev nD) → (b : Ref sig .tc) → Buf (Elt Ideal) ((c : Thread nD τ).loc b))

/-- The two input blocks at point t, read at (p, q, k): rows 4t + p of the arrays the region finds. -/
theorem read0_0 (c : Dev nD) (t : Fin cfg0.N) (p : Fin 4) (q : Fin 1000) (k : Fin 300) :
    iblk0 V c 0 t (ix3 p q k) = V c main_v0 (ix3 (rowAt t p) q k) := by
  show V c main_v0 (((cfg0.win 0).blk t).view.emb (ix3 p q k)) = _
  rw [emb0_0]
theorem read0_1 (c : Dev nD) (t : Fin cfg0.N) (p : Fin 4) (q : Fin 1000) (k : Fin 300) :
    iblk0 V c 1 t (ix3 p q k) = V c main_v1 (ix3 (rowAt t p) q k) := by
  show V c main_v1 (((cfg0.win 1).blk t).view.emb (ix3 p q k)) = _
  rw [emb0_1]

/-- WHAT POINT t WRITES BACK is block t of the distance cube of the arrays the region finds. -/
theorem flushed0_eq (c : Dev nD) (t : Fin cfg0.N) :
    (dat0 V c).flushed 2 t = ((cfg0.win 2).blk t).view.read (Elt Ideal) (dist3 (V c main_v1) (V c main_v0)) := by
  show (cfg0.win 2).cut (grid0.coords t) ((dat0 V c).after 2 t) = _
  rw [after0_2]
  unfold out0_2
  rw [View.canon_unit_zero hz3]
  simp only [View.ld_unit_zero (S := S4x1000x300) hz3]
  funext y
  obtain ⟨p, q, z, rfl⟩ : ∃ (p : Fin 4) (q : Fin 1000) (z : Fin 1), y = ix3 p q z := ⟨y 0, y 1, y 2, eq_ix3 y⟩
  have hz : z = 0 := Subsingleton.elim _ _
  subst hz
  show k0_pay1 (iblk0 V c 1 t) (iblk0 V c 0 t) (ix3 p q (0 : Fin 1))
    = dist3 (V c main_v1) (V c main_v0) (((cfg0.win 2).blk t).view.emb (ix3 p q (0 : Fin 1)))
  rw [emb0_2]
  refine (pay0_apply (iblk0 V c 1 t) (iblk0 V c 0 t) p q).trans ?_
  show _ = Ideal.sqrt (∑ k : Fin 300, sq (V c main_v1 (ix3 (rowAt t p) q k)) (V c main_v0 (ix3 (rowAt t p) q k)))
  refine congrArg Ideal.sqrt (Finset.sum_congr rfl fun k _ => ?_)
  rw [read0_0, read0_1]

/-- An index is in point t's block iff its coordinates are in the block's ranges. -/
theorem mem_blk0 (t : Fin cfg0.N) (i : S256x1000x1.Idx) :
    i ∈ ((cfg0.win 2).blk t).view.set ↔ ∀ a : Fin 3, win0_2.index t a * S4x1000x1.size a ≤ (i a).val ∧ (i a).val < win0_2.index t a * S4x1000x1.size a + S4x1000x1.size a := by
  show i ∈ ((View.whole main_v2).slice (win0_2.rect t)).set ↔ _
  rw [View.set_slice_whole, Rect.mem_set_unit]
  exact Iff.rfl

/-- The 64 blocks tile the array: row r is in block r / 4. -/
theorem cover0 (i : S256x1000x1.Idx) : ∃ t : Fin cfg0.N, (cfg0.win 2).flush t = true ∧ i ∈ ((cfg0.win 2).blk t).view.set := by
  have h0 : (i 0).val < 256 := (i 0).isLt
  have h1 : (i 1).val < 1000 := (i 1).isLt
  have h2 : (i 2).val < 1 := (i 2).isLt
  have hN : cfg0.N = 64 := N_0
  refine ⟨⟨(i 0).val / 4, by omega⟩, flush0_2 _, ?_⟩
  rw [mem_blk0]
  obtain ⟨-, -, -, -, -, -, e0, e1, e2⟩ := idx_facts0 ⟨(i 0).val / 4, by omega⟩
  intro a
  match a with
  | ⟨0, _⟩ => show win0_2.index _ (0 : Fin 3) * 4 ≤ (i 0).val ∧ (i 0).val < win0_2.index _ (0 : Fin 3) * 4 + 4; rw [e0]; show (i 0).val / 4 * 4 ≤ (i 0).val ∧ (i 0).val < (i 0).val / 4 * 4 + 4; omega
  | ⟨1, _⟩ => show win0_2.index _ (1 : Fin 3) * 1000 ≤ (i 1).val ∧ (i 1).val < win0_2.index _ (1 : Fin 3) * 1000 + 1000; rw [e1]; omega
  | ⟨2, _⟩ => show win0_2.index _ (2 : Fin 3) * 1 ≤ (i 2).val ∧ (i 2).val < win0_2.index _ (2 : Fin 3) * 1 + 1; rw [e2]; omega

/-- THE ARRAY after the first call: the distance cube of the arrays the region finds. -/
theorem final0 (c : Dev nD) : (dat0 V c).arrAt 2 cfg0.N = dist3 (V c main_v1) (V c main_v0) :=
  (dat0 V c).arrAt_eq_of_cover 2 (dist3 (V c main_v1) (V c main_v0)) (fun t _ => flushed0_eq V c t) cover0

end Region0

end Cert.KernelIdeal.RunValue

end
-- ==== Proof.MineRef.lean ====
/-
  The reference's hardest-triplet mining as ONE function of the distance matrix and the labels: with the mask
  m(b, c) = [label b = c], the column statistics P(c) = max_b rel·m, M(c) = max_b rel, N(c) = min_b (rel + M·m), the
  per-column loss T(c) = max (P − N + 1) 0, and the result (Σ_c T) / (#{c : T(c) > 1e-16} + 1e-16). The reference's
  last stage is this function of its distance stage (`stage_eq_mine`: the same operations, by unfolding).
-/
import proofs.«160560_j884763263444_1_alg».proof.Proof.Gen.ReferenceIdeal.Read

noncomputable section

namespace Cert.ReferenceIdeal.RefValue

open Cert.ReferenceIdeal Cert.ReferenceIdeal.Gen Cert.ReferenceIdeal.Read Idealize.ShloMosaic

/-- m(b, c): 1 where column c is row b's label, else 0. -/
def mask (lab : IVec S256 32) : FVec Ideal S256x1000 .f32 :=
  uitofp .f32 (cmpi .eq (broadcastInDim S256x1000 ![0, 1] bcast_S256x1_S256x1000_0_1 (broadcastInDim S256x1 ![0] bcast_S256_S256x1_0 lab))
    (broadcastInDim S256x1000 ![0, 1] bcast_S1x1000_S256x1000_0_1 (iotaInDim S1x1000 32 1)))

/-- T(c), as one row. -/
def triplet (rel : FVec Ideal S256x1000 .f32) (lab : IVec S256 32) : FVec Ideal S1x1000 .f32 :=
  maximumf
    (addf
      (subf
        (broadcastInDim S1x1000 ![1] bcast_S1000_S1x1000_1
          (Host.reduce FloatOps.maximumf (mulf rel (mask lab)) (constant S_ .f32 0xFF800000#32) reducesTo_S256x1000_S1000_d0 h_S_))
        (broadcastInDim S1x1000 ![1] bcast_S1000_S1x1000_1
          (Host.reduce FloatOps.minimumf
            (addf rel
              (mulf
                (broadcastInDim S256x1000 ![0, 1] bcast_S1x1000_S256x1000_0_1
                  (broadcastInDim S1x1000 ![1] bcast_S1000_S1x1000_1
                    (Host.reduce FloatOps.maximumf rel (constant S_ .f32 0xFF800000#32) reducesTo_S256x1000_S1000_d0 h_S_)))
                (mask lab)))
            (constant S_ .f32 0x7F800000#32) reducesTo_S256x1000_S1000_d0 h_S_)))
      (broadcastInDim S1x1000 ![] bcast_S_S1x1000 (constant S_ .f32 0x3F800000#32)))
    (broadcastInDim S1x1000 ![] bcast_S_S1x1000 (constant S_ .f32 0x00000000#32))

/-- The mined loss. -/
def mine (rel : FVec Ideal S256x1000 .f32) (lab : IVec S256 32) : FVec Ideal S_ .f32 :=
  Host.divf
    (Host.reduceAdd (triplet rel lab) (constant S_ .f32 0x00000000#32) reducesTo_S1x1000_S_d0_1 h_S_)
    (addf
      (Host.reduceAdd
        (uitofp .f32 (cmpf .ogt (triplet rel lab) (broadcastInDim S1x1000 ![] bcast_S_S1x1000 (constant S_ .f32 0x24E69595#32))))
        (constant S_ .f32 0x00000000#32) reducesTo_S1x1000_S_d0_1 h_S_)
      (constant S_ .f32 0x24E69595#32))

/-- The reference's result stage is `mine` of its distance stage and the labels. -/
theorem stage_eq_mine (x0 x1 : FVec Ideal S256000x300 .f32) (x2 : IVec S256 32) :
    val_main_v28 (F := Ideal) x0 x1 x2 = mine (val_main_v6 (F := Ideal) x0 x1) x2 := rfl

end Cert.ReferenceIdeal.RefValue

end
-- ==== Proof.LibMineBridge.lean ====
/-
  A kernel's and a host program's spellings of the pieces of a masked column reduction over a [256, 1000] matrix, each pair
  read to one value at the ideal floats: the 0/1 mask "column = label of the row" (a `tpu.iota` compared with the labels'
  column broadcast along the rows and converted through a word, against the host's compare of two `broadcast_in_dim`s
  converted from the bit); a column maximum or minimum (a `vector.multi_reduction` over axis 0 cast to one row, against the
  host's `reduce` broadcast into one row); a one-row matrix laid along every row; and the total of a one-row matrix (a
  `multi_reduction <add>` into one entry against the host's sum over both axes).
-/
import Idealize.ShloMosaic.Lib.KernelVsHost
import Idealize.ShloMosaic.Lib.Pipeline.Value
import Idealize.ShloMosaic.Lib.ValueIdx
import Idealize.ShloMosaic.PureOps.Ideal.Laws

noncomputable section

namespace Cert.MineBridge

open Idealize.ShloMosaic Idealize.ShloMosaic.ValueIdx

/-- The matrix of distances, the labels as a vector and as a column, a column statistic as a vector and as one row. -/
abbrev Rel : Shape := ⟨2, ![256, 1000]⟩
abbrev Lab : Shape := ⟨1, ![256]⟩
abbrev LabCol : Shape := ⟨2, ![256, 1]⟩
abbrev Cols : Shape := ⟨1, ![1000]⟩
abbrev Row : Shape := ⟨2, ![1, 1000]⟩
abbrev One : Shape := ⟨1, ![1]⟩
abbrev Sc : Shape := ⟨0, ![]⟩

/-- Equality of two words as a bit does not depend on the order of the two. -/
theorem cmpi_eq_comm (x y : BitVec 32) : IntOp.cmpi .eq x y = IntOp.cmpi .eq y x := by
  unfold IntOp.cmpi
  show BitVec.ofBool (x == y) = BitVec.ofBool (y == x)
  rw [Bool.beq_comm]

/-- THE MASK. Entry (b, c) of both is 1 where column c is row b's label and 0 elsewhere. -/
theorem mask_eq (lab : IVec Lab 32) (h0 : Lab.ShapeCasts LabCol) (h1 h2 : LabCol.ShapeCasts LabCol) (hi : Rel.Iotas .tc 32 [1])
    (hb : LabCol.Broadcasts Rel) (hlt : 1 < 32)
    (g0 : Lab.BroadcastsInDim LabCol ![0]) (g1 : LabCol.BroadcastsInDim Rel ![0, 1]) (g2 : Row.BroadcastsInDim Rel ![0, 1]) :
    (sitofp .f32 (extui 32 (cmpi .eq (iota .tc Rel 32 [1] hi)
        (broadcastTo Rel (shapeCast LabCol (shapeCast LabCol (shapeCast LabCol lab h0) h1) h2) hb)) hlt) : FVec Ideal Rel .f32)
      = uitofp .f32 (cmpi .eq (broadcastInDim Rel ![0, 1] g1 (broadcastInDim LabCol ![0] g0 lab))
          (broadcastInDim Rel ![0, 1] g2 (iotaInDim Row 32 1))) := by
  rw [sitofp_extui_eq_uitofp, shapeCast_self, shapeCast_self]
  refine congrArg (uitofp .f32) (funext fun j => ?_)
  obtain ⟨b, c, rfl⟩ : ∃ (b : Fin 256) (c : Fin 1000), j = ix2 b c := ⟨j 0, j 1, eq_ix2 j⟩
  have e0 : iota .tc Rel 32 [1] hi (ix2 b c) = BitVec.ofNat 32 c.val := iota_single_apply .tc Rel 32 1 hi (ix2 b c)
  have e1 : broadcastTo Rel (shapeCast LabCol lab h0) hb (ix2 b c) = lab (ix1 b) :=
    (broadcastTo_apply (shapeCast LabCol lab h0) hb (ix2 b c) (ix2 b (0 : Fin 1)) (fun a => by
      match a with
      | ⟨0, _⟩ => show b.val = if (256 : ℕ) = 1 then 0 else b.val; rw [if_neg (by decide)]
      | ⟨1, _⟩ => show (0 : ℕ) = if (1 : ℕ) = 1 then 0 else c.val; rw [if_pos rfl])).trans
    (shapeCast_apply lab h0 (ix2 b (0 : Fin 1)) (ix1 b) (by
      rw [Shape.rowMajor_val_one, Shape.rowMajor_val_two]; show b.val = b.val * 1 + 0; omega))
  have e2 : broadcastInDim Rel ![0, 1] g1 (broadcastInDim LabCol ![0] g0 lab) (ix2 b c) = lab (ix1 b) :=
    (broadcastInDim_apply ![0, 1] g1 (broadcastInDim LabCol ![0] g0 lab) (ix2 b c) (ix2 b (0 : Fin 1)) (fun a => by
      match a with
      | ⟨0, _⟩ => show b.val = if (256 : ℕ) = 1 then 0 else b.val; rw [if_neg (by decide)]
      | ⟨1, _⟩ => show (0 : ℕ) = if (1 : ℕ) = 1 then 0 else c.val; rw [if_pos rfl])).trans
    (broadcastInDim_apply ![0] g0 lab (ix2 b (0 : Fin 1)) (ix1 b) (fun a => by
      match a with
      | ⟨0, _⟩ => show b.val = if (256 : ℕ) = 1 then 0 else b.val; rw [if_neg (by decide)]))
  have e3 : broadcastInDim Rel ![0, 1] g2 (iotaInDim Row 32 1) (ix2 b c) = BitVec.ofNat 32 c.val :=
    broadcastInDim_apply ![0, 1] g2 (iotaInDim Row 32 1) (ix2 b c) (ix2 (0 : Fin 1) c) (fun a => by
      match a with
      | ⟨0, _⟩ => show (0 : ℕ) = if (1 : ℕ) = 1 then 0 else b.val; rw [if_pos rfl]
      | ⟨1, _⟩ => show c.val = if (1000 : ℕ) = 1 then 0 else c.val; rw [if_neg (by decide)])
  show IntOp.cmpi .eq (iota .tc Rel 32 [1] hi (ix2 b c)) (broadcastTo Rel (shapeCast LabCol lab h0) hb (ix2 b c))
    = IntOp.cmpi .eq (broadcastInDim Rel ![0, 1] g1 (broadcastInDim LabCol ![0] g0 lab) (ix2 b c))
        (broadcastInDim Rel ![0, 1] g2 (iotaInDim Row 32 1) (ix2 b c))
  rw [e0, e1, e2, e3, cmpi_eq_comm]

/-- A COLUMN MAXIMUM: the kernel's reduction over the rows cast to one row is the host's reduce from the same initial
    word broadcast into one row; both are, at column t, the fold of `max` over the 256 rows. -/
theorem colMax_eq (v : FVec Ideal Rel .f32) (h : Rel.Reduces [0] Cols) (h' : Rel.ReducesTo [0] Cols)
    (hu : 0 < Sc.numel) (hsc : Cols.ShapeCasts Row) (hb : Cols.BroadcastsInDim Row ![1]) (hφ : FKind.Formats .f32) :
    shapeCast Row (multiReduction .maximumf [0] Cols v 0xFF800000#32 h hφ rfl) hsc
      = broadcastInDim Row ![1] hb (Host.reduce FloatOps.maximumf v (constant Sc .f32 0xFF800000#32) h' hu) := by
  funext j
  obtain ⟨r, t, rfl⟩ : ∃ (r : Fin 1) (t : Fin 1000), j = ix2 r t := ⟨j 0, j 1, eq_ix2 j⟩
  have hr : r = 0 := Subsingleton.elim _ _
  subst hr
  rw [shapeCast_apply _ hsc (ix2 (0 : Fin 1) t) (ix1 t) (by
      rw [Shape.rowMajor_val_one, Shape.rowMajor_val_two]; show t.val = 0 * 1000 + t.val; omega),
    broadcastInDim_apply ![1] hb _ (ix2 (0 : Fin 1) t) (ix1 t) (fun a => by
      match a with
      | ⟨0, _⟩ => show t.val = if (1000 : ℕ) = 1 then 0 else t.val; rw [if_neg (by decide)])]
  refine (multiReduction_maximumf_eq_fold v 0xFF800000#32 h hφ rfl (ix1 t)).trans ?_
  rw [Host.reduce_eq_fold_single FloatOps.maximumf v _ h' h hu, h.fold_filter_drop_single]
  rfl

/-- A COLUMN MINIMUM, likewise. -/
theorem colMin_eq (v : FVec Ideal Rel .f32) (h : Rel.Reduces [0] Cols) (h' : Rel.ReducesTo [0] Cols)
    (hu : 0 < Sc.numel) (hsc : Cols.ShapeCasts Row) (hb : Cols.BroadcastsInDim Row ![1]) (hφ : FKind.Formats .f32) :
    shapeCast Row (multiReduction .minimumf [0] Cols v 0x7F800000#32 h hφ rfl) hsc
      = broadcastInDim Row ![1] hb (Host.reduce FloatOps.minimumf v (constant Sc .f32 0x7F800000#32) h' hu) := by
  funext j
  obtain ⟨r, t, rfl⟩ : ∃ (r : Fin 1) (t : Fin 1000), j = ix2 r t := ⟨j 0, j 1, eq_ix2 j⟩
  have hr : r = 0 := Subsingleton.elim _ _
  subst hr
  rw [shapeCast_apply _ hsc (ix2 (0 : Fin 1) t) (ix1 t) (by
      rw [Shape.rowMajor_val_one, Shape.rowMajor_val_two]; show t.val = 0 * 1000 + t.val; omega),
    broadcastInDim_apply ![1] hb _ (ix2 (0 : Fin 1) t) (ix1 t) (fun a => by
      match a with
      | ⟨0, _⟩ => show t.val = if (1000 : ℕ) = 1 then 0 else t.val; rw [if_neg (by decide)])]
  refine (multiReduction_minimumf_eq_fold v 0x7F800000#32 h hφ rfl (ix1 t)).trans ?_
  rw [Host.reduce_eq_fold_single FloatOps.minimumf v _ h' h hu, h.fold_filter_drop_single]
  rfl

/-- ONE ROW LAID ALONG EVERY ROW: the kernel's broadcast of a one-row matrix is the host's `broadcast_in_dim` of it. -/
theorem rowDown_eq {α : Type} (y : Row.Idx → α) (hb : Row.Broadcasts Rel) (g : Row.BroadcastsInDim Rel ![0, 1]) :
    broadcastTo Rel y hb = broadcastInDim Rel ![0, 1] g y := by
  funext j
  obtain ⟨b, c, rfl⟩ : ∃ (b : Fin 256) (c : Fin 1000), j = ix2 b c := ⟨j 0, j 1, eq_ix2 j⟩
  rw [broadcastTo_apply y hb (ix2 b c) (ix2 (0 : Fin 1) c) (fun a => by
      match a with
      | ⟨0, _⟩ => show (0 : ℕ) = if (1 : ℕ) = 1 then 0 else b.val; rw [if_pos rfl]
      | ⟨1, _⟩ => show c.val = if (1000 : ℕ) = 1 then 0 else c.val; rw [if_neg (by decide)]),
    broadcastInDim_apply ![0, 1] g y (ix2 b c) (ix2 (0 : Fin 1) c) (fun a => by
      match a with
      | ⟨0, _⟩ => show (0 : ℕ) = if (1 : ℕ) = 1 then 0 else b.val; rw [if_pos rfl]
      | ⟨1, _⟩ => show c.val = if (1000 : ℕ) = 1 then 0 else c.val; rw [if_neg (by decide)])]

/-- A SPLAT ALONG ONE ROW: the kernel's broadcast of a scalar constant is the host's `broadcast_in_dim` of the constant. -/
theorem splat_eq (b : BitVec 32) (g : Sc.BroadcastsInDim Row ![]) :
    (broadcast Row (FloatOps.ofBits (F := Ideal) .f32 b) : FVec Ideal Row .f32)
      = broadcastInDim Row ![] g (constant Sc .f32 b) := by
  funext j; rfl

/-- THE TOTAL OF ONE ROW: the kernel's sum along the row into one entry is the host's sum over both axes from zero; both
    are the sum over every entry. -/
theorem rowTotal_eq (v : FVec Ideal Row .f32) (h : Row.Reduces [1] One) (h' : Row.ReducesTo [0, 1] Sc) (hu : 0 < Sc.numel)
    (hφ : FKind.Formats .f32) (j : One.Idx) (i : Sc.Idx) :
    multiReduction .add [1] One v 0x00000000#32 h hφ rfl j
      = Host.reduceAdd v (constant Sc .f32 0x00000000#32) h' hu i := by
  refine (Ideal.multiReduction_add_total v 0x00000000#32 h (fun b => by match b with | ⟨0, _⟩ => rfl) hφ rfl j).trans ?_
  show _ = Ideal.hostReduceAdd h' v (Ideal.ofBits .f32 0x00000000#32) i
  rw [Ideal.hostReduceAdd_total h' (fun b => b.elim0) v _ i, Ideal.ofBits_zero_f32, zero_add]

end Cert.MineBridge

end
-- ==== Proof.MineKernel.lean ====
/-
  The mining kernel's stored value, at its one entry, is the reference's `mine` of the same distance matrix and labels (the
  kernel sees the labels as a [256, 1] column). Spelling by spelling the kernel's operations are the host's: the mask, the
  three column reductions cast to one row, the one row laid along the rows, the splat constants, the bit converted through a
  word; the two totals over the one row and the final quotient are then read at the entry.
-/
import proofs.«160560_j884763263444_1_alg».proof.Proof.Gen.KernelIdeal.Skeleton
import proofs.«160560_j884763263444_1_alg».proof.Proof.MineRef
import proofs.«160560_j884763263444_1_alg».proof.Proof.LibMineBridge

noncomputable section

namespace Cert.KernelIdeal.MineValue

open Idealize.ShloMosaic Idealize.ShloMosaic.ValueIdx
open Cert.ReferenceIdeal.RefValue (mine triplet mask)

theorem pay_eq_mine (rel : FVec Ideal Cert.KernelIdeal.S256x1000 .f32) (lab : IVec Cert.KernelIdeal.S256 32)
    (j : Cert.KernelIdeal.S1.Idx) (i : Cert.KernelIdeal.S_.Idx) :
    Cert.KernelIdeal.Gen.k1_pay1 (F := Ideal) rel
        (shapeCast Cert.KernelIdeal.S256x1 lab Cert.KernelIdeal.Facts₀.shapeCasts_S256_S256x1) j
      = mine rel lab i := by
  unfold Cert.KernelIdeal.Gen.k1_pay1 mine triplet mask
  dsimp only
  rw [shapeCast_self rel,
    Cert.MineBridge.mask_eq lab _ _ _ _ _ _ Cert.ReferenceIdeal.Gen.bcast_S256_S256x1_0
      Cert.ReferenceIdeal.Gen.bcast_S256x1_S256x1000_0_1 Cert.ReferenceIdeal.Gen.bcast_S1x1000_S256x1000_0_1]
  rw [Cert.MineBridge.colMax_eq _ _ Cert.ReferenceIdeal.Gen.reducesTo_S256x1000_S1000_d0 Cert.ReferenceIdeal.Gen.h_S_ _
      Cert.ReferenceIdeal.Gen.bcast_S1000_S1x1000_1,
    Cert.MineBridge.colMax_eq _ _ Cert.ReferenceIdeal.Gen.reducesTo_S256x1000_S1000_d0 Cert.ReferenceIdeal.Gen.h_S_ _
      Cert.ReferenceIdeal.Gen.bcast_S1000_S1x1000_1,
    Cert.MineBridge.rowDown_eq _ _ Cert.ReferenceIdeal.Gen.bcast_S1x1000_S256x1000_0_1,
    Cert.MineBridge.colMin_eq _ _ Cert.ReferenceIdeal.Gen.reducesTo_S256x1000_S1000_d0 Cert.ReferenceIdeal.Gen.h_S_ _
      Cert.ReferenceIdeal.Gen.bcast_S1000_S1x1000_1,
    sitofp_extui_eq_uitofp,
    Cert.MineBridge.splat_eq 0x3F800000#32 Cert.ReferenceIdeal.Gen.bcast_S_S1x1000,
    Cert.MineBridge.splat_eq 0x00000000#32 Cert.ReferenceIdeal.Gen.bcast_S_S1x1000,
    Cert.MineBridge.splat_eq 0x24E69595#32 Cert.ReferenceIdeal.Gen.bcast_S_S1x1000,
    divf_apply, addf_apply,
    Cert.MineBridge.rowTotal_eq _ _ Cert.ReferenceIdeal.Gen.reducesTo_S1x1000_S_d0_1 Cert.ReferenceIdeal.Gen.h_S_ _ j i,
    Cert.MineBridge.rowTotal_eq _ _ Cert.ReferenceIdeal.Gen.reducesTo_S1x1000_S_d0_1 Cert.ReferenceIdeal.Gen.h_S_ _ j i]
  rfl

end Cert.KernelIdeal.MineValue

end
-- ==== Proof.KernelResult.lean ====
/-
  The second call and the host views between the calls, and with them the kernel program's result as a function of its
  arguments: `mine` of the distance matrix `distFlat` of the two float arguments and of the labels.
-/
import proofs.«160560_j884763263444_1_alg».proof.Proof.KernelValue
import proofs.«160560_j884763263444_1_alg».proof.Proof.MineKernel

set_option maxRecDepth 16384

noncomputable section

namespace Cert.KernelIdeal.RunValue

open Cert.KernelIdeal Cert.KernelIdeal.Gen
open Idealize.ShloMosaic Idealize.ShloMosaic.TcCoe Idealize.ShloMosaic.ValueIdx Idealize.SL.Sem
open Idealize.ShloMosaic.Pipeline (Dat)
open Cert.DistBridge (dist3 distFlat sq)

/-! ## The second call: one point over whole arrays -/

theorem hz2 : (![0, 0] : Fin 2 → Nat) = fun _ => 0 := funext fun a => by fin_cases a <;> rfl
theorem hz1 : (![0] : Fin 1 → Nat) = fun _ => 0 := funext fun a => by fin_cases a <;> rfl

/-- Every window's block index is zero on every axis. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0 :=
  (by decide +kernel : ∀ t : Fin grid1.N, _)

section Region1
variable (V : (c : Dev nD) → (b : Ref sig .tc) → Buf (Elt Ideal) ((c : Thread nD τ).loc b))

/-- Each input block is its whole array. -/
theorem iblk1_0 (c : Dev nD) (t : Fin cfg1.N) : (iblk1 V c 0 t : Vec Ideal S256x1000 .f32) = V c main_v3 := by
  obtain ⟨e0, e1, -⟩ := idx_facts1 t
  funext y
  show V c main_v3 (((cfg1.win 0).blk t).view.emb y) = V c main_v3 y
  refine congrArg (V c main_v3) (funext fun a => Fin.ext ?_)
  match a with
  | ⟨0, _⟩ => show win1_0.index t (0 : Fin 2) * 256 + 1 * (y 0).val = (y 0).val; omega
  | ⟨1, _⟩ => show win1_0.index t (1 : Fin 2) * 1000 + 1 * (y 1).val = (y 1).val; omega
theorem iblk1_1 (c : Dev nD) (t : Fin cfg1.N) : (iblk1 V c 1 t : Vec Ideal S256x1 .i32) = V c main_v4 := by
  obtain ⟨-, -, e0, e1, -⟩ := idx_facts1 t
  funext y
  show V c main_v4 (((cfg1.win 1).blk t).view.emb y) = V c main_v4 y
  refine congrArg (V c main_v4) (funext fun a => Fin.ext ?_)
  match a with
  | ⟨0, _⟩ => show win1_1.index t (0 : Fin 2) * 256 + 1 * (y 0).val = (y 0).val; omega
  | ⟨1, _⟩ => show win1_1.index t (1 : Fin 2) * 1 + 1 * (y 1).val = (y 1).val; omega

/-- WHAT THE POINT WRITES BACK is the mining payload of the two arrays the region finds. -/
theorem flushed1_eq (c : Dev nD) (t : Fin cfg1.N) :
    (dat1 V c).flushed 2 t = ((cfg1.win 2).blk t).view.read (Elt Ideal) (k1_pay1 (F := Ideal) (V c main_v3) (V c main_v4)) := by
  obtain ⟨-, -, -, -, e0⟩ := idx_facts1 t
  show (cfg1.win 2).cut (grid1.coords t) ((dat1 V c).after 2 t) = _
  rw [after1_2]
  unfold out1_2
  rw [View.canon_unit_zero hz1]
  simp only [View.ld_unit_zero (S := S256x1000) hz2, View.ld_unit_zero (S := S256x1) hz2]
  rw [iblk1_0, iblk1_1]
  funext y
  show k1_pay1 (F := Ideal) (V c main_v3) (V c main_v4) y
    = k1_pay1 (F := Ideal) (V c main_v3) (V c main_v4) (((cfg1.win 2).blk t).view.emb y)
  refine congrArg (k1_pay1 (F := Ideal) (V c main_v3) (V c main_v4)) (funext fun a => Fin.ext ?_)
  match a with
  | ⟨0, _⟩ => show (y 0).val = win1_2.index t (0 : Fin 1) * 1 + 1 * (y 0).val; omega

theorem mem_blk1 (t : Fin cfg1.N) (i : S1.Idx) :
    i ∈ ((cfg1.win 2).blk t).view.set ↔ ∀ a : Fin 1, win1_2.index t a * S1.size a ≤ (i a).val ∧ (i a).val < win1_2.index t a * S1.size a + S1.size a := by
  show i ∈ ((View.whole main_v5).slice (win1_2.rect t)).set ↔ _
  rw [View.set_slice_whole, Rect.mem_set_unit]
  exact Iff.rfl

theorem cover1 (i : S1.Idx) : ∃ t : Fin cfg1.N, (cfg1.win 2).flush t = true ∧ i ∈ ((cfg1.win 2).blk t).view.set := by
  have h0 : (i 0).val < 1 := (i 0).isLt
  refine ⟨t1_0, flush1_2 _, ?_⟩
  rw [mem_blk1]
  obtain ⟨-, -, -, -, e0⟩ := idx_facts1 t1_0
  intro a
  match a with
  | ⟨0, _⟩ => show win1_2.index _ (0 : Fin 1) * 1 ≤ (i 0).val ∧ (i 0).val < win1_2.index _ (0 : Fin 1) * 1 + 1; rw [e0]; omega

/-- THE ARRAY after the second call: the mining payload of the arrays the region finds. -/
theorem final1 (c : Dev nD) : (dat1 V c).arrAt 2 cfg1.N = k1_pay1 (F := Ideal) (V c main_v3) (V c main_v4) :=
  (dat1 V c).arrAt_eq_of_cover 2 (k1_pay1 (F := Ideal) (V c main_v3) (V c main_v4)) (fun t _ => flushed1_eq V c t) cover1

end Region1

/-! ## The boundaries -/

variable (m : (ℓ : Loc nD τ sig) → Buf (Elt Ideal) ℓ) (ρ : Dev nD → PrngReg)

/-- Before the first call the host views the two float arguments [256, 1000, 300]. -/
theorem V1_v0 (c : Dev nD) : V1 m ρ c main_v0
    = shapeCast S256x1000x300 (m ((c : Thread nD τ).loc main_arg0)) shapeCasts_S256000x300_S256x1000x300 := by
  show StableHlo.after hostOps0 (W0 m ρ c) (Proc.devRef .tc main_v0) = _
  after_results
  rfl
theorem V1_v1 (c : Dev nD) : V1 m ρ c main_v1
    = shapeCast S256x1000x300 (m ((c : Thread nD τ).loc main_arg1)) shapeCasts_S256000x300_S256x1000x300 := by
  show StableHlo.after hostOps0 (W0 m ρ c) (Proc.devRef .tc main_v1) = _
  after_results
  rfl

/-- Between the calls it views the first call's array [256, 1000] and the labels [256, 1]. -/
theorem V3_v3 (c : Dev nD) : V3 m ρ c main_v3
    = shapeCast S256x1000 (W2 m ρ c (Proc.devRef .tc main_v2)) shapeCasts_S256x1000x1_S256x1000 := by
  show StableHlo.after hostOps1 (W2 m ρ c) (Proc.devRef .tc main_v3) = _
  after_results
  rfl
theorem V3_v4 (c : Dev nD) : V3 m ρ c main_v4
    = shapeCast S256x1 (W2 m ρ c (Proc.devRef .tc main_arg2)) shapeCasts_S256_S256x1 := by
  show StableHlo.after hostOps1 (W2 m ρ c) (Proc.devRef .tc main_v4) = _
  after_results
  rfl

/-- The labels reach the second boundary as launched: the first call and the views before it write other buffers. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

/-- After the second call it views the one-entry array as a scalar. -/
theorem W5_v6 (c : Dev nD) : W5 m ρ c (Proc.devRef .tc main_v6)
    = shapeCast S_ (W4 m ρ c (Proc.devRef .tc main_v5)) shapeCasts_S1_S_ := by
  show StableHlo.after hostOps2 (W4 m ρ c) (Proc.devRef .tc main_v6) = _
  after_results
  rfl

/-- THE RESULT of the kernel program: `mine` of the distances of the float arguments and of the labels. -/
theorem result_eq (c : Dev nD) :
    W5 m ρ c (Proc.devRef .tc main_v6)
      = Cert.ReferenceIdeal.RefValue.mine
          (distFlat (m ((c : Thread nD τ).loc main_arg1)) (m ((c : Thread nD τ).loc main_arg0)))
          (m ((c : Thread nD τ).loc main_arg2)) := by
  have h3 : V3 m ρ c main_v3 = distFlat (m ((c : Thread nD τ).loc main_arg1)) (m ((c : Thread nD τ).loc main_arg0)) := by
    rw [V3_v3]
    have hw : W2 m ρ c (Proc.devRef .tc main_v2) = (dat0 (V1 m ρ) c).arrAt 2 cfg0.N := W2_arr m ρ c 2
    rw [hw, final0, V1_v0, V1_v1]
    exact Cert.DistBridge.dist3_flat _ _ _ _
  have h4 : V3 m ρ c main_v4 = shapeCast S256x1 (m ((c : Thread nD τ).loc main_arg2)) shapeCasts_S256_S256x1 := by
    rw [V3_v4, W2_arg2]
  have hw4 : W4 m ρ c (Proc.devRef .tc main_v5) = (dat1 (V3 m ρ) c).arrAt 2 cfg1.N := W4_arr m ρ c 2
  funext i
  rw [W5_v6, hw4, final1, h3, h4]
  exact Cert.KernelIdeal.MineValue.pay_eq_mine _ _ _ i

end Cert.KernelIdeal.RunValue

end
-- ==== Proof.DistRef.lean ====
/-
  The reference's distance stage (subtract, shift by ε, square, sum each of the 256000 rows over its 300 columns, root,
  view [256, 1000]) is the distance matrix `distFlat`: at (b, c) both are the root of row `1000·b + c`'s sum of squares,
  the host's sum starting from a zero.
-/
import proofs.«160560_j884763263444_1_alg».proof.Proof.Gen.ReferenceIdeal.Read
import proofs.«160560_j884763263444_1_alg».proof.Proof.LibDistBridge

noncomputable section

namespace Cert.ReferenceIdeal.RefValue

open Cert.ReferenceIdeal Cert.ReferenceIdeal.Gen Cert.ReferenceIdeal.Read Idealize.ShloMosaic Idealize.ShloMosaic.ValueIdx
open Cert.DistBridge (distFlat sq rowOf)

theorem stage_eq_dist (x0 x1 : FVec Ideal S256000x300 .f32) :
    val_main_v6 (F := Ideal) x0 x1 = distFlat x1 x0 := by
  funext j
  obtain ⟨b, c, rfl⟩ : ∃ (b : Fin 256) (c : Fin 1000), j = ix2 b c := ⟨j 0, j 1, eq_ix2 j⟩
  rw [val_main_v6_apply, val_main_v5_apply, Ideal.hostUnary_sqrt_def, val_main_v4_apply, val_main_cst_0_apply,
    Ideal.ofBits_def, Ideal.ofBits_zero_f32, zero_add]
  show _ = Ideal.sqrt (∑ k : Fin 300, sq (x1 (ix2 (rowOf b c) k)) (x0 (ix2 (rowOf b c) k)))
  refine congrArg Ideal.sqrt (Finset.sum_congr rfl fun k _ => ?_)
  have hi : idx_main_v4 (idx_main_v6 (ix2 b c)) k = ix2 (rowOf b c) k :=
    funext fun a => Fin.ext (by match a with | ⟨0, _⟩ => rfl | ⟨1, _⟩ => rfl)
  rw [hi, val_main_v3_apply, val_main_v2_apply, val_main_v1_apply, val_main_cst_apply, val_main_v0_apply]
  rfl

end Cert.ReferenceIdeal.RefValue

end
-- ==== Proof.lean ====
/-
  Hardest-triplet mining over pairwise distances, a two-call kernel against its jnp reference, over the extended reals.

  Both programs compute, from two [256000, 300] arrays a, e and 256 labels, the distances rel(b, c) = ‖e_r − a_r + ε‖₂ of
  row r = 1000·b + c, and then with the mask m(b, c) = [label b = c]: P(c) = max_b rel·m, M(c) = max_b rel,
  N(c) = min_b (rel + M·m), T(c) = max (P − N + 1) 0, and the loss (Σ_c T) / (#{c : T(c) > 1e-16} + 1e-16).
  The kernel computes rel four rows of b at a time from the arrays viewed [256, 1000, 300] and mines it in a second call
  over whole arrays; the reference does both on the host. Operation by operation the two agree at the ideal floats: the same
  literals, sums and maxima and minima over the same index sets (in whatever order: + , max and min commute and associate on
  the extended reals), the same square root and quotient. No step uses finiteness of the inputs.

  The three frames are the generated ones (the reference's is its generated run with the result dropped); no operation was
  rewritten by the idealization, so `preserves` is trivial; `algebraic` joins the kernel's run, read back through its two
  calls, and the reference's run at the one function `mine (distFlat e a) labels`.
-/
import proofs.«160560_j884763263444_1_alg».proof.Defs
import proofs.«160560_j884763263444_1_alg».proof.Proof.Gen.Kernel
import proofs.«160560_j884763263444_1_alg».proof.Proof.Gen.Kernel.Frame
import proofs.«160560_j884763263444_1_alg».proof.Proof.Gen.KernelIdeal
import proofs.«160560_j884763263444_1_alg».proof.Proof.Gen.KernelIdeal.Frame
import proofs.«160560_j884763263444_1_alg».proof.Proof.Gen.ReferenceIdeal
import proofs.«160560_j884763263444_1_alg».proof.Proof.Gen.ReferenceIdeal.Run
import proofs.«160560_j884763263444_1_alg».proof.Proof.Gen.ReferenceIdeal.Read
import proofs.«160560_j884763263444_1_alg».proof.Proof.Gen.Pre_finite_inputs
import proofs.«160560_j884763263444_1_alg».proof.Proof.KernelRun
import proofs.«160560_j884763263444_1_alg».proof.Proof.KernelResult
import proofs.«160560_j884763263444_1_alg».proof.Proof.MineRef
import proofs.«160560_j884763263444_1_alg».proof.Proof.DistRef
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at `mine (distFlat e a) labels` of arguments that agree. -/
theorem algebraic : Cert.algebraic_KernelIdeal_ReferenceIdeal := by
  intro m ρ m' ρ' _ hagree
  refine ⟨fun c => Cert.ReferenceIdeal.RefValue.mine
      (Cert.DistBridge.distFlat (m ((c.tc : Thread Cert.KernelIdeal.nD Cert.KernelIdeal.τ).loc Cert.KernelIdeal.main_arg1))
        (m ((c.tc : Thread Cert.KernelIdeal.nD Cert.KernelIdeal.τ).loc Cert.KernelIdeal.main_arg0)))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.RunValue.result_eq m ρ c), (h c).2⟩)
      (Cert.KernelIdeal.RunValue.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v28_eq, Cert.ReferenceIdeal.RefValue.stage_eq_mine,
      Cert.ReferenceIdeal.RefValue.stage_eq_dist, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
